-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192x64 : Shape := ⟨3, ![128, 8192, 64]⟩
abbrev S32x32 : Shape := ⟨2, ![32, 32]⟩
abbrev S95x32 : Shape := ⟨2, ![95, 32]⟩
abbrev S_ : Shape := ⟨0, ![]⟩

class Facts : Prop where
  bcast_S_S128x8192x64 : S_.BroadcastsInDim S128x8192x64 (![] : Fin 0 → Fin S128x8192x64.rank)
  reducesTo_S128x8192x64_S_d0_1_2 : S128x8192x64.ReducesTo [0, 1, 2] S_
  h_S_ : 0 < S_.numel
  bcast_S_S32x32 : S_.BroadcastsInDim S32x32 (![] : Fin 0 → Fin S32x32.rank)
  reducesTo_S32x32_S_d0_1 : S32x32.ReducesTo [0, 1] S_
  bcast_S_S95x32 : S_.BroadcastsInDim S95x32 (![] : Fin 0 → Fin S95x32.rank)
  reducesTo_S95x32_S_d0_1 : S95x32.ReducesTo [0, 1] S_

variable [Facts]

def fn {F : FTy → Type} [FloatOps F] (main_arg0 : FVec F S128x8192x64 .f32) (main_arg1 : FVec F S32x32 .f32) (main_arg2 : FVec F S95x32 .f32) : IVec S_ 1 :=
  let main_v0 : FVec F S128x8192x64 .f32 := Host.absf main_arg0
  let main_cst : FVec F S_ .f32 := constant S_ .f32 0x7F800000#32
  let main_v1 : FVec F S128x8192x64 .f32 := broadcastInDim S128x8192x64 ![] bcast_S_S128x8192x64 main_cst
  let main_v2 : IVec S128x8192x64 1 := cmpf .olt main_v0 main_v1
  let main_c : IVec S_ 1 := constantI S_ 1 1#1
  let main_v3 : IVec S_ 1 := (fun x v => Host.reduce IntOp.andi x v reducesTo_S128x8192x64_S_d0_1_2 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S95x32 .f32 := Host.absf main_arg2
  let main_cst_2 : FVec F S_ .f32 := constant S_ .f32 0x7F800000#32
  let main_v10 : FVec F S95x32 .f32 := broadcastInDim S95x32 ![] bcast_S_S95x32 main_cst_2
  let main_v11 : IVec S95x32 1 := cmpf .olt main_v9 main_v10
  let main_c_3 : IVec S_ 1 := constantI S_ 1 1#1
  let main_v12 : IVec S_ 1 := (fun x v => Host.reduce IntOp.andi x v reducesTo_S95x32_S_d0_1 h_S_) main_v11 main_c_3
  let main_v13 : IVec S_ 1 := andi main_v8 main_v12
  main_v13
-- ==== Kernel.lean ====
abbrev S128x8192x64 : Shape := ⟨3, ![128, 8192, 64]⟩
abbrev S32x32 : Shape := ⟨2, ![32, 32]⟩
abbrev S95x32 : Shape := ⟨2, ![95, 32]⟩
abbrev S32 : Shape := ⟨1, ![32]⟩
abbrev S1x32 : Shape := ⟨2, ![1, 32]⟩
abbrev S32x1 : Shape := ⟨2, ![32, 1]⟩
abbrev S_ : Shape := ⟨0, ![]⟩
abbrev S96x32 : Shape := ⟨2, ![96, 32]⟩
abbrev S96 : Shape := ⟨1, ![96]⟩
abbrev S96x1 : Shape := ⟨2, ![96, 1]⟩
abbrev S128x128 : Shape := ⟨2, ![128, 128]⟩
abbrev S1 : Shape := ⟨1, ![1]⟩
abbrev S2 : Shape := ⟨1, ![2]⟩
abbrev S96x32x1 : Shape := ⟨3, ![96, 32, 1]⟩
abbrev S96x32x2 : Shape := ⟨3, ![96, 32, 2]⟩
abbrev S128x524288 : Shape := ⟨2, ![128, 524288]⟩
abbrev S128x8192 : Shape := ⟨2, ![128, 8192]⟩

abbrev nBuf : Space → Nat
  | .hbm => 90
  | .vmem => 5
  | .smem => 0
  | _ => 0

abbrev bufTy : (tb : Table) → Fin (tcTables nBuf tb) → BufTy
  | .hbm, ⟨0, _⟩ => ⟨S128x8192x64, .f32⟩
  | .hbm, ⟨1, _⟩ => ⟨S32x32, .f32⟩
  | .hbm, ⟨2, _⟩ => ⟨S95x32, .f32⟩
  | .hbm, ⟨3, _⟩ => ⟨S32, .i32⟩
  | .hbm, ⟨4, _⟩ => ⟨S1x32, .i32⟩
  | .hbm, ⟨5, _⟩ => ⟨S32, .i32⟩
  | .hbm, ⟨6, _⟩ => ⟨S32x1, .i32⟩
  | .hbm, ⟨7, _⟩ => ⟨S32x32, .i32⟩
  | .hbm, ⟨8, _⟩ => ⟨S32x32, .i32⟩
  | .hbm, ⟨9, _⟩ => ⟨S32x32, .i1⟩
  | .hbm, ⟨10, _⟩ => ⟨S_, .f32⟩
  | .hbm, ⟨11, _⟩ => ⟨S_, .f32⟩
  | .hbm, ⟨12, _⟩ => ⟨S32x32, .f32⟩
  | .hbm, ⟨13, _⟩ => ⟨S32x32, .f32⟩
  | .hbm, ⟨14, _⟩ => ⟨S_, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32x1, .f32⟩
  | .hbm, ⟨20, _⟩ => ⟨S32x32, .f32⟩
  | .hbm, ⟨21, _⟩ => ⟨S32x32, .f32⟩
  | .hbm, ⟨22, _⟩ => ⟨S32x32, .f32⟩
  | .hbm, ⟨23, _⟩ => ⟨S_, .f32⟩
  | .hbm, ⟨24, _⟩ => ⟨S32, .f32⟩
  | .hbm, ⟨25, _⟩ => ⟨S32x1, .f32⟩
  | .hbm, ⟨26, _⟩ => ⟨S32x32, .f32⟩
  | .hbm, ⟨27, _⟩ => ⟨S32x32, .f32⟩
  | .hbm, ⟨28, _⟩ => ⟨S1x32, .f32⟩
  | .hbm, ⟨29, _⟩ => ⟨S96x32, .f32⟩
  | .hbm, ⟨30, _⟩ => ⟨S_, .f32⟩
  | .hbm, ⟨31, _⟩ => ⟨S96, .f32⟩
  | .hbm, ⟨32, _⟩ => ⟨S_, .f32⟩
  | .hbm, ⟨33, _⟩ => ⟨S96, .f32⟩
  | .hbm, ⟨34, _⟩ => ⟨S96, .f32⟩
  | .hbm, ⟨35, _⟩ => ⟨S96x1, .f32⟩
  | .hbm, ⟨36, _⟩ => ⟨S96x32, .f32⟩
  | .hbm, ⟨37, _⟩ => ⟨S96x32, .f32⟩
  | .hbm, ⟨38, _⟩ => ⟨S96x32, .f32⟩
  | .hbm, ⟨39, _⟩ => ⟨S_, .f32⟩
  | .hbm, ⟨40, _⟩ => ⟨S96, .f32⟩
  | .hbm, ⟨41, _⟩ => ⟨S96x1, .f32⟩
  | .hbm, ⟨42, _⟩ => ⟨S96x32, .f32⟩
  | .hbm, ⟨43, _⟩ => ⟨S96x32, .f32⟩
  | .hbm, ⟨44, _⟩ => ⟨S_, .f32⟩
  | .hbm, ⟨45, _⟩ => ⟨S128x128, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S128x128, .f32⟩
  | .hbm, ⟨52, _⟩ => ⟨S96, .i32⟩
  | .hbm, ⟨53, _⟩ => ⟨S_, .i32⟩
  | .hbm, ⟨54, _⟩ => ⟨S96, .i32⟩
  | .hbm, ⟨55, _⟩ => ⟨S96, .i32⟩
  | .hbm, ⟨56, _⟩ => ⟨S_, .i32⟩
  | .hbm, ⟨57, _⟩ => ⟨S96, .i32⟩
  | .hbm, ⟨58, _⟩ => ⟨S96, .i32⟩
  | .hbm, ⟨59, _⟩ => ⟨S_, .i32⟩
  | .hbm, ⟨60, _⟩ => ⟨S96, .i32⟩
  | .hbm, ⟨61, _⟩ => ⟨S96, .i32⟩
  | .hbm, ⟨62, _⟩ => ⟨S96x1, .i32⟩
  | .hbm, ⟨63, _⟩ => ⟨S1x32, .i32⟩
  | .hbm, ⟨64, _⟩ => ⟨S96x32, .i32⟩
  | .hbm, ⟨65, _⟩ => ⟨S96x32, .i32⟩
  | .hbm, ⟨66, _⟩ => ⟨S96x32, .i32⟩
  | .hbm, ⟨67, _⟩ => ⟨S96x1, .i32⟩
  | .hbm, ⟨68, _⟩ => ⟨S_, .i32⟩
  | .hbm, ⟨69, _⟩ => ⟨S96x1, .i32⟩
  | .hbm, ⟨70, _⟩ => ⟨S96x1, .i1⟩
  | .hbm, ⟨71, _⟩ => ⟨S_, .i32⟩
  | .hbm, ⟨72, _⟩ => ⟨S96x1, .i32⟩
  | .hbm, ⟨73, _⟩ => ⟨S96x1, .i32⟩
  | .hbm, ⟨74, _⟩ => ⟨S96x1, .i32⟩
  | .hbm, ⟨75, _⟩ => ⟨S_, .i32⟩
  | .hbm, ⟨76, _⟩ => ⟨S96x32, .i32⟩
  | .hbm, ⟨77, _⟩ => ⟨S96x32, .i1⟩
  | .hbm, ⟨78, _⟩ => ⟨S_, .i32⟩
  | .hbm, ⟨79, _⟩ => ⟨S96x32, .i32⟩
  | .hbm, ⟨80, _⟩ => ⟨S96x32, .i32⟩
  | .hbm, ⟨81, _⟩ => ⟨S96x32, .i32⟩
  | .hbm, ⟨82, _⟩ => ⟨S96x32, .i32⟩
  | .hbm, ⟨83, _⟩ => ⟨S96x32x1, .i32⟩
  | .hbm, ⟨84, _⟩ => ⟨S96x32x1, .i32⟩
  | .hbm, ⟨85, _⟩ => ⟨S96x32x2, .i32⟩
  | .hbm, ⟨86, _⟩ => ⟨S128x128, .f32⟩
  | .hbm, ⟨87, _⟩ => ⟨S128x524288, .f32⟩
  | .hbm, ⟨88, _⟩ => ⟨S128x524288, .f32⟩
  | .hbm, ⟨89, _⟩ => ⟨S128x8192x64, .f32⟩
  | .local _ .vmem, ⟨0, _⟩ => ⟨S128x128, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | _, _ => ⟨S128x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_c : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_c_9 : Ref sig .tc := ⟨.hbm, 56, rfl⟩
abbrev main_v40 : Ref sig .tc := ⟨.hbm, 57, rfl⟩
abbrev main_v41 : Ref sig .tc := ⟨.hbm, 58, rfl⟩
abbrev main_c_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_11 : Ref sig .tc := ⟨.hbm, 68, rfl⟩
abbrev main_v50 : Ref sig .tc := ⟨.hbm, 69, rfl⟩
abbrev main_v51 : Ref sig .tc := ⟨.hbm, 70, rfl⟩
abbrev main_c_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_13 : Ref sig .tc := ⟨.hbm, 75, rfl⟩
abbrev main_v55 : Ref sig .tc := ⟨.hbm, 76, rfl⟩
abbrev main_v56 : Ref sig .tc := ⟨.hbm, 77, rfl⟩
abbrev main_c_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S32_S1x32_1 : S32.BroadcastsInDim S1x32 (![1] : Fin 1 → Fin S1x32.rank)
  bcast_S32_S32x1_0 : S32.BroadcastsInDim S32x1 (![0] : Fin 1 → Fin S32x1.rank)
  bcast_S1x32_S32x32_0_1 : S1x32.BroadcastsInDim S32x32 (![0, 1] : Fin 2 → Fin S32x32.rank)
  bcast_S32x1_S32x32_0_1 : S32x1.BroadcastsInDim S32x32 (![0, 1] : Fin 2 → Fin S32x32.rank)
  bcast_S_S32x32 : S_.BroadcastsInDim S32x32 (![] : Fin 0 → Fin S32x32.rank)
  reducesTo_S32x32_S32_d1 : S32x32.ReducesTo [1] S32
  h_S_ : 0 < S_.numel
  bcast_S_S32 : S_.BroadcastsInDim S32 (![] : Fin 0 → Fin S32.rank)
  slices_S32x32_S1x32_31_0 : S32x32.Slices ![31, 0] S1x32
  concatenates_S1x32_S95x32_S96x32_d0 : Shape.Concatenates [S1x32, S95x32] S96x32 0
  reducesTo_S96x32_S96_d1 : S96x32.ReducesTo [1] S96
  bcast_S_S96 : S_.BroadcastsInDim S96 (![] : Fin 0 → Fin S96.rank)
  bcast_S96_S96x1_0 : S96.BroadcastsInDim S96x1 (![0] : Fin 1 → Fin S96x1.rank)
  bcast_S96x1_S96x32_0_1 : S96x1.BroadcastsInDim S96x32 (![0, 1] : Fin 2 → Fin S96x32.rank)
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  bcast_S1x32_S96x32_0_1 : S1x32.BroadcastsInDim S96x32 (![0, 1] : Fin 2 → Fin S96x32.rank)
  bcast_S_S96x1 : S_.BroadcastsInDim S96x1 (![] : Fin 0 → Fin S96x1.rank)
  bcast_S_S96x32 : S_.BroadcastsInDim S96x32 (![] : Fin 0 → Fin S96x32.rank)
  bcast_S96x32_S96x32x1_0_1 : S96x32.BroadcastsInDim S96x32x1 (![0, 1] : Fin 2 → Fin S96x32x1.rank)
  concatenates_S96x32x1_S96x32x1_S96x32x2_d2 : Shape.Concatenates [S96x32x1, S96x32x1] S96x32x2 2
  shapeCasts_S128x8192x64_S128x524288 : S128x8192x64.ShapeCasts S128x524288
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  shapeCasts_S128x524288_S128x8192x64 : S128x524288.ShapeCasts S128x8192x64
  scatter_S128x128_S2_S32x32_01_n_01_0_wf : ScatterDims.WF S128x128 S2 S32x32 [0, 1] [] [0, 1] 0
  scatter_S128x128_S96x32x2_S96x32_n_01_01_2_wf : ScatterDims.WF S128x128 S96x32x2 S96x32 [] [0, 1] [0, 1] 2
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x128.size a
  hwx0_0 : ∀ i : grid0.Coords, EltTy.bits .f32 = 32 ∨ (Rect.block (s := S128x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x524288.size a
  hwx0_1 : ∀ i : grid0.Coords, EltTy.bits .f32 = 32 ∨ (Rect.block (s := S128x524288) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S128x524288.size a
  hwx0_2 : ∀ i : grid0.Coords, EltTy.bits .f32 = 32 ∨ (Rect.block (s := S128x524288) S128x8192.size (cc0_transform_2 i) (hinb0_2 i)).WholeWords (EltTy.packing .f32)

variable [Facts₀]

def scatter_S128x128_S2_S32x32_01_n_01_0 : ScatterDims S128x128 S2 S32x32 where
  updateWindowDims := [0, 1]
  insertedWindowDims := []
  scatterDimsToOperandDims := [0, 1]
  indexVectorDim := 0
  wf := scatter_S128x128_S2_S32x32_01_n_01_0_wf
def scatter_S128x128_S96x32x2_S96x32_n_01_01_2 : ScatterDims S128x128 S96x32x2 S96x32 where
  updateWindowDims := []
  insertedWindowDims := [0, 1]
  scatterDimsToOperandDims := [0, 1]
  indexVectorDim := 2
  wf := scatter_S128x128_S96x32x2_S96x32_n_01_01_2_wf
def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_v64) S128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v65) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v66) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x8192x64 : Shape := ⟨3, ![128, 8192, 64]⟩
abbrev S32x32 : Shape := ⟨2, ![32, 32]⟩
abbrev S95x32 : Shape := ⟨2, ![95, 32]⟩
abbrev S32 : Shape := ⟨1, ![32]⟩
abbrev S1x32 : Shape := ⟨2, ![1, 32]⟩
abbrev S32x1 : Shape := ⟨2, ![32, 1]⟩
abbrev S_ : Shape := ⟨0, ![]⟩
abbrev S96x32 : Shape := ⟨2, ![96, 32]⟩
abbrev S96 : Shape := ⟨1, ![96]⟩
abbrev S96x1 : Shape := ⟨2, ![96, 1]⟩
abbrev S128x128 : Shape := ⟨2, ![128, 128]⟩
abbrev S1 : Shape := ⟨1, ![1]⟩
abbrev S2 : Shape := ⟨1, ![2]⟩
abbrev S96x32x1 : Shape := ⟨3, ![96, 32, 1]⟩
abbrev S96x32x2 : Shape := ⟨3, ![96, 32, 2]⟩
abbrev S128x524288 : Shape := ⟨2, ![128, 524288]⟩

abbrev nBuf : Space → Nat
  | .hbm => 90
  | .vmem => 0
  | .smem => 0
  | _ => 0

abbrev bufTy : (tb : Table) → Fin (tcTables nBuf tb) → BufTy
  | .hbm, ⟨0, _⟩ => ⟨S128x8192x64, .f32⟩
  | .hbm, ⟨1, _⟩ => ⟨S32x32, .f32⟩
  | .hbm, ⟨2, _⟩ => ⟨S95x32, .f32⟩
  | .hbm, ⟨3, _⟩ => ⟨S32, .i32⟩
  | .hbm, ⟨4, _⟩ => ⟨S1x32, .i32⟩
  | .hbm, ⟨5, _⟩ => ⟨S32, .i32⟩
  | .hbm, ⟨6, _⟩ => ⟨S32x1, .i32⟩
  | .hbm, ⟨7, _⟩ => ⟨S32x32, .i32⟩
  | .hbm, ⟨8, _⟩ => ⟨S32x32, .i32⟩
  | .hbm, ⟨9, _⟩ => ⟨S32x32, .i1⟩
  | .hbm, ⟨10, _⟩ => ⟨S_, .f32⟩
  | .hbm, ⟨11, _⟩ => ⟨S_, .f32⟩
  | .hbm, ⟨12, _⟩ => ⟨S32x32, .f32⟩
  | .hbm, ⟨13, _⟩ => ⟨S32x32, .f32⟩
  | .hbm, ⟨14, _⟩ => ⟨S_, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32x1, .f32⟩
  | .hbm, ⟨20, _⟩ => ⟨S32x32, .f32⟩
  | .hbm, ⟨21, _⟩ => ⟨S32x32, .f32⟩
  | .hbm, ⟨22, _⟩ => ⟨S32x32, .f32⟩
  | .hbm, ⟨23, _⟩ => ⟨S_, .f32⟩
  | .hbm, ⟨24, _⟩ => ⟨S32, .f32⟩
  | .hbm, ⟨25, _⟩ => ⟨S32x1, .f32⟩
  | .hbm, ⟨26, _⟩ => ⟨S32x32, .f32⟩
  | .hbm, ⟨27, _⟩ => ⟨S32x32, .f32⟩
  | .hbm, ⟨28, _⟩ => ⟨S1x32, .f32⟩
  | .hbm, ⟨29, _⟩ => ⟨S96x32, .f32⟩
  | .hbm, ⟨30, _⟩ => ⟨S_, .f32⟩
  | .hbm, ⟨31, _⟩ => ⟨S96, .f32⟩
  | .hbm, ⟨32, _⟩ => ⟨S_, .f32⟩
  | .hbm, ⟨33, _⟩ => ⟨S96, .f32⟩
  | .hbm, ⟨34, _⟩ => ⟨S96, .f32⟩
  | .hbm, ⟨35, _⟩ => ⟨S96x1, .f32⟩
  | .hbm, ⟨36, _⟩ => ⟨S96x32, .f32⟩
  | .hbm, ⟨37, _⟩ => ⟨S96x32, .f32⟩
  | .hbm, ⟨38, _⟩ => ⟨S96x32, .f32⟩
  | .hbm, ⟨39, _⟩ => ⟨S_, .f32⟩
  | .hbm, ⟨40, _⟩ => ⟨S96, .f32⟩
  | .hbm, ⟨41, _⟩ => ⟨S96x1, .f32⟩
  | .hbm, ⟨42, _⟩ => ⟨S96x32, .f32⟩
  | .hbm, ⟨43, _⟩ => ⟨S96x32, .f32⟩
  | .hbm, ⟨44, _⟩ => ⟨S_, .f32⟩
  | .hbm, ⟨45, _⟩ => ⟨S128x128, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S128x128, .f32⟩
  | .hbm, ⟨52, _⟩ => ⟨S96, .i32⟩
  | .hbm, ⟨53, _⟩ => ⟨S_, .i32⟩
  | .hbm, ⟨54, _⟩ => ⟨S96, .i32⟩
  | .hbm, ⟨55, _⟩ => ⟨S96, .i32⟩
  | .hbm, ⟨56, _⟩ => ⟨S_, .i32⟩
  | .hbm, ⟨57, _⟩ => ⟨S96, .i32⟩
  | .hbm, ⟨58, _⟩ => ⟨S96, .i32⟩
  | .hbm, ⟨59, _⟩ => ⟨S_, .i32⟩
  | .hbm, ⟨60, _⟩ => ⟨S96, .i32⟩
  | .hbm, ⟨61, _⟩ => ⟨S96, .i32⟩
  | .hbm, ⟨62, _⟩ => ⟨S96x1, .i32⟩
  | .hbm, ⟨63, _⟩ => ⟨S1x32, .i32⟩
  | .hbm, ⟨64, _⟩ => ⟨S96x32, .i32⟩
  | .hbm, ⟨65, _⟩ => ⟨S96x32, .i32⟩
  | .hbm, ⟨66, _⟩ => ⟨S96x32, .i32⟩
  | .hbm, ⟨67, _⟩ => ⟨S96x1, .i32⟩
  | .hbm, ⟨68, _⟩ => ⟨S_, .i32⟩
  | .hbm, ⟨69, _⟩ => ⟨S96x1, .i32⟩
  | .hbm, ⟨70, _⟩ => ⟨S96x1, .i1⟩
  | .hbm, ⟨71, _⟩ => ⟨S_, .i32⟩
  | .hbm, ⟨72, _⟩ => ⟨S96x1, .i32⟩
  | .hbm, ⟨73, _⟩ => ⟨S96x1, .i32⟩
  | .hbm, ⟨74, _⟩ => ⟨S96x1, .i32⟩
  | .hbm, ⟨75, _⟩ => ⟨S_, .i32⟩
  | .hbm, ⟨76, _⟩ => ⟨S96x32, .i32⟩
  | .hbm, ⟨77, _⟩ => ⟨S96x32, .i1⟩
  | .hbm, ⟨78, _⟩ => ⟨S_, .i32⟩
  | .hbm, ⟨79, _⟩ => ⟨S96x32, .i32⟩
  | .hbm, ⟨80, _⟩ => ⟨S96x32, .i32⟩
  | .hbm, ⟨81, _⟩ => ⟨S96x32, .i32⟩
  | .hbm, ⟨82, _⟩ => ⟨S96x32, .i32⟩
  | .hbm, ⟨83, _⟩ => ⟨S96x32x1, .i32⟩
  | .hbm, ⟨84, _⟩ => ⟨S96x32x1, .i32⟩
  | .hbm, ⟨85, _⟩ => ⟨S96x32x2, .i32⟩
  | .hbm, ⟨86, _⟩ => ⟨S128x128, .f32⟩
  | .hbm, ⟨87, _⟩ => ⟨S128x524288, .f32⟩
  | .hbm, ⟨88, _⟩ => ⟨S128x524288, .f32⟩
  | .hbm, ⟨89, _⟩ => ⟨S128x8192x64, .f32⟩
  | _, _ => ⟨S128x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_c : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_c_9 : Ref sig .tc := ⟨.hbm, 56, rfl⟩
abbrev main_v40 : Ref sig .tc := ⟨.hbm, 57, rfl⟩
abbrev main_v41 : Ref sig .tc := ⟨.hbm, 58, rfl⟩
abbrev main_c_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_11 : Ref sig .tc := ⟨.hbm, 68, rfl⟩
abbrev main_v50 : Ref sig .tc := ⟨.hbm, 69, rfl⟩
abbrev main_v51 : Ref sig .tc := ⟨.hbm, 70, rfl⟩
abbrev main_c_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_13 : Ref sig .tc := ⟨.hbm, 75, rfl⟩
abbrev main_v55 : Ref sig .tc := ⟨.hbm, 76, rfl⟩
abbrev main_v56 : Ref sig .tc := ⟨.hbm, 77, rfl⟩
abbrev main_c_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S32_S32x1_0 : S32.BroadcastsInDim S32x1 (![0] : Fin 1 → Fin S32x1.rank)
  bcast_S1x32_S32x32_0_1 : S1x32.BroadcastsInDim S32x32 (![0, 1] : Fin 2 → Fin S32x32.rank)
  bcast_S32x1_S32x32_0_1 : S32x1.BroadcastsInDim S32x32 (![0, 1] : Fin 2 → Fin S32x32.rank)
  bcast_S_S32x32 : S_.BroadcastsInDim S32x32 (![] : Fin 0 → Fin S32x32.rank)
  reducesTo_S32x32_S32_d1 : S32x32.ReducesTo [1] S32
  h_S_ : 0 < S_.numel
  bcast_S_S32 : S_.BroadcastsInDim S32 (![] : Fin 0 → Fin S32.rank)
  slices_S32x32_S1x32_31_0 : S32x32.Slices ![31, 0] S1x32
  concatenates_S1x32_S95x32_S96x32_d0 : Shape.Concatenates [S1x32, S95x32] S96x32 0
  reducesTo_S96x32_S96_d1 : S96x32.ReducesTo [1] S96
  bcast_S_S96 : S_.BroadcastsInDim S96 (![] : Fin 0 → Fin S96.rank)
  bcast_S96_S96x1_0 : S96.BroadcastsInDim S96x1 (![0] : Fin 1 → Fin S96x1.rank)
  bcast_S96x1_S96x32_0_1 : S96x1.BroadcastsInDim S96x32 (![0, 1] : Fin 2 → Fin S96x32.rank)
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  bcast_S1x32_S96x32_0_1 : S1x32.BroadcastsInDim S96x32 (![0, 1] : Fin 2 → Fin S96x32.rank)
  bcast_S_S96x1 : S_.BroadcastsInDim S96x1 (![] : Fin 0 → Fin S96x1.rank)
  bcast_S_S96x32 : S_.BroadcastsInDim S96x32 (![] : Fin 0 → Fin S96x32.rank)
  bcast_S96x32_S96x32x1_0_1 : S96x32.BroadcastsInDim S96x32x1 (![0, 1] : Fin 2 → Fin S96x32x1.rank)
  concatenates_S96x32x1_S96x32x1_S96x32x2_d2 : Shape.Concatenates [S96x32x1, S96x32x1] S96x32x2 2
  shapeCasts_S128x8192x64_S128x524288 : S128x8192x64.ShapeCasts S128x524288
  shapeCasts_S128x524288_S128x8192x64 : S128x524288.ShapeCasts S128x8192x64
  scatter_S128x128_S2_S32x32_01_n_01_0_wf : ScatterDims.WF S128x128 S2 S32x32 [0, 1] [] [0, 1] 0
  scatter_S128x128_S96x32x2_S96x32_n_01_01_2_wf : ScatterDims.WF S128x128 S96x32x2 S96x32 [] [0, 1] [0, 1] 2
  dot_S128x128_S128x524288_S128x524288_1_0_0_1_n_n_wf : DotDims.WF S128x128 S128x524288 S128x524288 [1] [0] [0] [1] [] []

variable [Facts₀]

def scatter_S128x128_S2_S32x32_01_n_01_0 : ScatterDims S128x128 S2 S32x32 where
  updateWindowDims := [0, 1]
  insertedWindowDims := []
  scatterDimsToOperandDims := [0, 1]
  indexVectorDim := 0
  wf := scatter_S128x128_S2_S32x32_01_n_01_0_wf
def scatter_S128x128_S96x32x2_S96x32_n_01_01_2 : ScatterDims S128x128 S96x32x2 S96x32 where
  updateWindowDims := []
  insertedWindowDims := [0, 1]
  scatterDimsToOperandDims := [0, 1]
  indexVectorDim := 2
  wf := scatter_S128x128_S96x32x2_S96x32_n_01_01_2_wf
def dot_S128x128_S128x524288_S128x524288_1_0_0_1_n_n : DotDims S128x128 S128x524288 S128x524288 where
  lhsContracting := [1]
  rhsContracting := [0]
  lhsNonContracting := [0]
  rhsNonContracting := [1]
  lhsBatch := []
  rhsBatch := []
  wf := dot_S128x128_S128x524288_S128x524288_1_0_0_1_n_n_wf

class Facts : Prop extends Facts₀ where

variable [Facts]
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.BandMix.lean ====
import proofs.«121357_j66675072303670_1_alg».proof.Proof.LibPlainDot

noncomputable section

open scoped BigOperators

/-! # Mixing the rows of a matrix by a square weight matrix

`mix W X` is the matrix product of a 128 × 128 weight matrix with a 128 × N matrix on the extended reals: row `t` of the
result is the sum of the 128 rows of `X`, row `k` weighted by `W (t, k)`. Both a matrix-unit product into the zero
accumulator and a host `dot_general`, for dimension numbers "rows by contraction, contraction by columns", are this
function, entry by entry; only sums and products over the same finite index set are involved, so no entry needs to be
finite. -/

namespace Cert.BandMix

open Idealize.ShloMosaic Idealize.ShloMosaic.ValueIdx

variable {N : ℕ}

/-- Entry `(t, n)` is `∑ k, W (t, k) * X (k, n)`. -/
def mix (W : (⟨2, ![128, 128]⟩ : Shape).Idx → EReal) (X : (⟨2, ![128, N]⟩ : Shape).Idx → EReal) :
    (⟨2, ![128, N]⟩ : Shape).Idx → EReal :=
  fun j => ∑ k : Fin 128, W (ix2 (j 0) k) * X (ix2 k (j 1))

theorem mix_apply (W : (⟨2, ![128, 128]⟩ : Shape).Idx → EReal) (X : (⟨2, ![128, N]⟩ : Shape).Idx → EReal)
    (j : (⟨2, ![128, N]⟩ : Shape).Idx) : mix W X j = ∑ k : Fin 128, W (ix2 (j 0) k) * X (ix2 k (j 1)) := rfl

/-- An entry of the product reads only one row of the weights and one column of the right operand: if those agree with
    a row and a column of other operands, possibly of another width, the entries agree. -/
theorem mix_congr {N' : ℕ} (W x0 : (⟨2, ![128, 128]⟩ : Shape).Idx → EReal) (X : (⟨2, ![128, N]⟩ : Shape).Idx → EReal)
    (x1 : (⟨2, ![128, N']⟩ : Shape).Idx → EReal) (j : (⟨2, ![128, N']⟩ : Shape).Idx) (i : (⟨2, ![128, N]⟩ : Shape).Idx)
    (h0 : ∀ k : Fin 128, x0 (ix2 (j 0) k) = W (ix2 (i 0) k)) (h1 : ∀ k : Fin 128, x1 (ix2 k (j 1)) = X (ix2 k (i 1))) :
    mix x0 x1 j = mix W X i :=
  Finset.sum_congr rfl fun k _ => by rw [h0 k, h1 k]

/-- A matrix-unit product into the zero accumulator is `mix` of its operands, whatever their float formats. -/
theorem matmul_zero_eq {φ₁ φ₂ : FTy} (d : DotDims ⟨2, ![128, 128]⟩ ⟨2, ![128, N]⟩ ⟨2, ![128, N]⟩) (hd : d = DotDims.plain 128 128 N)
    (prec : Option ContractPrecision) (l : FVec Ideal ⟨2, ![128, 128]⟩ φ₁) (r : FVec Ideal ⟨2, ![128, N]⟩ φ₂) :
    FloatOps.matmul d prec l r (constant ⟨2, ![128, N]⟩ .f32 0x00000000#32) = mix l r :=
  funext fun j => Cert.PlainDot.matmul_zero_apply d hd prec l r j

/-- A host `dot_general` is `mix` of its operands. -/
theorem dotGeneral_eq {φ₁ φ₂ : FTy} (d : DotDims ⟨2, ![128, 128]⟩ ⟨2, ![128, N]⟩ ⟨2, ![128, N]⟩) (hd : d = DotDims.plain 128 128 N)
    (prec : Option ContractPrecision) (sched : HostSchedule) (l : FVec Ideal ⟨2, ![128, 128]⟩ φ₁) (r : FVec Ideal ⟨2, ![128, N]⟩ φ₂) :
    FloatOps.dotGeneral d prec sched l r = mix l r :=
  funext fun j => Cert.PlainDot.dotGeneral_apply d hd prec sched l r j

end Cert.BandMix

end
-- ==== Proof.KernelValue.lean ====
import proofs.«121357_j66675072303670_1_alg».proof.Proof.Gen.KernelIdeal.Frame
import proofs.«121357_j66675072303670_1_alg».proof.Proof.BandMix
import Idealize.ShloMosaic.Lib.Pipeline.Value
import Idealize.ShloMosaic.Lib.ValueIdx
import Idealize.ShloMosaic.Lib.StableHlo.Run

set_option maxRecDepth 16384

noncomputable section

open scoped BigOperators

/-! # What the kernel's region leaves in its output array

The region runs over 64 grid points. Point `t` loads the whole 128 × 128 weight matrix and the 128 × 8192 column block
`t` of the flattened 128 × 524288 input, and writes back column block `t` of the output. The block it writes is the
weighted row sum of the loaded blocks, which is column block `t` of the weighted row sum of the whole arrays, because a
column of the product only reads the same column of the right operand. The 64 column blocks tile the output. -/

namespace Cert.KernelIdeal.Banded

open Cert.KernelIdeal Cert.KernelIdeal.Gen Idealize.ShloMosaic Idealize.ShloMosaic.TcCoe Idealize.SL.Sem
open Idealize.ShloMosaic.ValueIdx Idealize.ShloMosaic.Pipeline

/-- The body's one stored value, at the extended reals: the two narrowings to bf16 are the identity there, and the
    matrix-unit product into zero is the weighted row sum of the two loaded blocks. -/
theorem pay_eq (x0 : Vec Ideal S128x128 .f32) (x1 : Vec Ideal S128x8192 .f32) :
    k0_pay1 (F := Ideal) x0 x1 = Cert.BandMix.mix x0 x1 := by
  unfold k0_pay1
  dsimp only
  refine (Cert.BandMix.matmul_zero_eq dot_S128x128_S128x8192_S128x8192_1_0_0_1_n_n rfl none _ _).trans ?_
  rw [shapeCast_self x0, shapeCast_self x1]
  rfl

variable (m : (ℓ : Loc nD τ sig) → Buf (Elt Ideal) ℓ) (ρ : Dev nD → PrngReg)

theorem origin : (![0, 0] : Fin 2 → Nat) = fun _ => 0 := funext fun a => by fin_cases a <;> rfl

/-- The printed index maps over the grid: the weight window stays at block (0, 0); the input and output windows are at
    row block 0 and column block `t`. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- For ANY weight matrix and ANY 128 × 524288 right operand: the weighted row sum of the weight window's block and the
    input window's block at point `t` is the output window's block at `t` of the weighted row sum of the whole arrays.
    Entry `(r, b)` of the block product reads row `r` of the weights and column `b` of column block `t`, which are row
    `r` and column `t * 8192 + b` of the whole arrays. -/
theorem block_mix (A0 : Vec Ideal S128x128 .f32) (A1 : Vec Ideal S128x524288 .f32) (t : Fin cfg0.N) :
    (cfg0.win 2).cut (grid0.coords t)
        (Cert.BandMix.mix (((cfg0.win 0).blk t).view.read (Elt Ideal) A0) (((cfg0.win 1).blk t).view.read (Elt Ideal) A1))
      = ((cfg0.win 2).blk t).view.read (Elt Ideal) (Cert.BandMix.mix A0 A1) := by
  obtain ⟨e0, e1, e2, e3, e4, e5⟩ := idx_facts t
  funext j
  show Cert.BandMix.mix (((cfg0.win 0).blk t).view.read (Elt Ideal) A0) (((cfg0.win 1).blk t).view.read (Elt Ideal) A1) j
    = Cert.BandMix.mix A0 A1 (((cfg0.win 2).blk t).view.emb j)
  refine Cert.BandMix.mix_congr A0 _ A1 _ j (((cfg0.win 2).blk t).view.emb j) (fun k => ?_) (fun k => ?_)
  · show A0 (((cfg0.win 0).blk t).view.emb (ix2 (j 0) k)) = A0 (ix2 ((((cfg0.win 2).blk t).view.emb j) 0) k)
    refine congrArg A0 (funext fun a => Fin.ext ?_)
    match a with
    | ⟨0, _⟩ => show win0_0.index t (0 : Fin 2) * 128 + 1 * (j 0).val = win0_2.index t (0 : Fin 2) * 128 + 1 * (j 0).val; omega
    | ⟨1, _⟩ => show win0_0.index t (1 : Fin 2) * 128 + 1 * k.val = k.val; omega
  · show A1 (((cfg0.win 1).blk t).view.emb (ix2 k (j 1))) = A1 (ix2 k ((((cfg0.win 2).blk t).view.emb j) 1))
    refine congrArg A1 (funext fun a => Fin.ext ?_)
    match a with
    | ⟨0, _⟩ => show win0_1.index t (0 : Fin 2) * 128 + 1 * k.val = k.val; omega
    | ⟨1, _⟩ => show win0_1.index t (1 : Fin 2) * 8192 + 1 * (j 1).val = win0_2.index t (1 : Fin 2) * 8192 + 1 * (j 1).val; omega

/-- The weight matrix and the flattened input as the region finds them (named exactly as the proof data names its
    arrays, at their literal types), and the whole output array the region computes. -/
abbrev wArr (c : Dev nD) : Vec Ideal S128x128 .f32 := V m c (Pipeline.arrRef spec0 0)
abbrev xArr (c : Dev nD) : Vec Ideal S128x524288 .f32 := V m c (Pipeline.arrRef spec0 1)
abbrev outArr (c : Dev nD) : Vec Ideal S128x524288 .f32 := Cert.BandMix.mix (wArr m c) (xArr m c)

/-- What point `t` writes back is column block `t` of the weighted row sum of the whole arrays. -/
theorem flushed_eq (c : Dev nD) (t : Fin cfg0.N) :
    (dats m 0 c).flushed 2 t = ((cfg0.win 2).blk t).view.read (Elt Ideal) (outArr m c) := by
  show (cfg0.win 2).cut (grid0.coords t) ((dats m 0 c).after 2 t) = _
  rw [after0_2]
  unfold out0_2
  rw [View.canon_unit_zero origin]
  simp only [View.ld_unit_zero (S := S128x128) origin, View.ld_unit_zero (S := S128x8192) origin]
  rw [pay_eq]
  unfold iblk
  exact block_mix (wArr m c) (xArr m c) t

/-- An index of the output array is in point `t`'s block iff each coordinate is in the block's range on its axis. -/
theorem mem_blk (t : Fin cfg0.N) (i : S128x524288.Idx) :
    i ∈ ((cfg0.win 2).blk t).view.set ↔ ∀ a : Fin 2, win0_2.index t a * S128x8192.size a ≤ (i a).val ∧ (i a).val < win0_2.index t a * S128x8192.size a + S128x8192.size a := by
  show i ∈ ((View.whole main_v66).slice (win0_2.rect t)).set ↔ _
  rw [View.set_slice_whole, Rect.mem_set_unit]
  exact Iff.rfl

/-- The 64 column blocks tile the output: column `n` is in the block of point `n / 8192`. -/
theorem cover (i : S128x524288.Idx) : ∃ t : Fin cfg0.N, (cfg0.win 2).flush t = true ∧ i ∈ ((cfg0.win 2).blk t).view.set := by
  have hN : cfg0.N = 64 := N_0
  have hi0 : (i 0).val < 128 := (i 0).isLt
  have hi1 : (i 1).val < 524288 := (i 1).isLt
  let t : Fin cfg0.N := ⟨(i 1).val / 8192, by rw [hN]; omega⟩
  have ht : t.val = (i 1).val / 8192 := rfl
  obtain ⟨e0, e1, e2, e3, e4, e5⟩ := idx_facts t
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 8192 ≤ (i 1).val ∧ (i 1).val < win0_2.index t (1 : Fin 2) * 8192 + 8192; omega

/-- The output array after the region is the weighted row sum of the flattened input. -/
theorem final (c : Dev nD) : (dats m 0 c).arrAt 2 cfg0.N = outArr m c :=
  (dats m 0 c).arrAt_eq_of_cover 2 (outArr m c) (fun t _ => flushed_eq m c t) cover

/-- The program's result: the one host operation after the region reshapes the output array to 128 × 8192 × 64. -/
theorem result_eq (c : Dev nD) :
    (Pipeline.afterTail₀ cfgs (dats m) 0 (V0 m) [hostOps1] c main_v67 : S128x8192x64.Idx → EReal)
      = shapeCast S128x8192x64 (outArr m c) shapeCasts_S128x524288_S128x8192x64 := by
  unfold Pipeline.afterTail₀
  show StableHlo.after hostOps1 _ (Proc.devRef .tc main_v67) = _
  after_results
  have hw : Pipeline.withArrays spec0 c (V0 m c) (fun w => (dats m 0 c).arrAt w cfg0.N) (Proc.devRef .tc (Pipeline.arrRef spec0 2))
      = outArr m c :=
    (Pipeline.withArrays_arr spec0 launch0.win.arr_inj c (V0 m c) (fun w => (dats m 0 c).arrAt w cfg0.N) 2).trans (final m c)
  exact congrArg (fun A : Vec Ideal S128x524288 .f32 =>
    (shapeCast S128x8192x64 A shapeCasts_S128x524288_S128x8192x64 : S128x8192x64.Idx → EReal)) hw

/-- The kernel's program, run: every weakly fair execution terminates with the result at the reshaped weighted row sum
    of the arrays the region found, and the three arguments unchanged. -/
theorem run : θ_run defs (onTc (τ := τ) (main (F := Ideal))) ⟨m, fun _ => 0, ρ⟩ fun r => ∀ c : Dev nD,
      r.2.mem ((c.tc : Thread nD τ).loc main_v67) = shapeCast S128x8192x64 (outArr m c) shapeCasts_S128x524288_S128x8192x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v67 (Pipeline.mem_restRefs_of main_v67 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Banded

end
-- ==== Proof.Prefix.lean ====
import proofs.«121357_j66675072303670_1_alg».proof.Proof.Gen.KernelIdeal.Frame
import proofs.«121357_j66675072303670_1_alg».proof.Proof.Gen.ReferenceIdeal.Read
import Idealize.ShloMosaic.Lib.StableHlo.Run

set_option maxRecDepth 16384

noncomputable section

/-! # The arrays the region finds

Before the region the kernel's program builds the banded softmax weight matrix from the two parameter arrays and
flattens the input to 128 × 524288, by the very host operations the reference runs before its product. So the weight
matrix the region finds is the reference's own matrix, as a function of the two parameter arrays, and the right operand
is the reference's own flattening of the input. Neither function is opened: only that the two programs apply the same
operations in the same order is used. -/

namespace Cert.KernelIdeal.Banded

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- Window 0 of the region stages the weight matrix's buffer and window 1 the flattened input's. -/
theorem arr0 : Pipeline.arrRef spec0 0 = main_v64 := rfl
theorem arr1 : Pipeline.arrRef spec0 1 = main_v65 := rfl

/-- The contents at the region's entry of one buffer under two names. -/
theorem V_heq (c : Dev nD) {b b' : Ref sig .tc} (h : b = b') : HEq (V m c b) (V m c b') := by
  subst h; rfl

set_option maxHeartbeats 40000000 in
/-- The weight matrix at the region's entry is the reference's weight matrix of the two parameter arrays. -/
theorem weights_at (c : Dev nD) :
    (V m c main_v64 : S128x128.Idx → EReal)
      = Cert.ReferenceIdeal.Read.val_main_v64 (F := Ideal) (m ((c : Thread nD τ).loc main_arg1)) (m ((c : Thread nD τ).loc main_arg2)) := by
  dsimp only [V, V0]
  simp only [hostOps0, hostOps0_1, hostOps0_2, List.flatten_cons, List.flatten_nil, List.append_nil, List.cons_append,
    List.nil_append]
  after_results_simp <;> rfl

set_option maxHeartbeats 40000000 in
/-- The right operand at the region's entry is the reference's flattening of the input. -/
theorem input_at (c : Dev nD) :
    (V m c main_v65 : S128x524288.Idx → EReal)
      = Cert.ReferenceIdeal.Read.val_main_v65 (F := Ideal) (m ((c : Thread nD τ).loc main_arg0)) := by
  dsimp only [V, V0]
  simp only [hostOps0, hostOps0_1, hostOps0_2, List.flatten_cons, List.flatten_nil, List.append_nil, List.cons_append,
    List.nil_append]
  after_results_simp <;> rfl

/-- The same two facts with the arrays named as the region's proof data names them: the arrays of windows 0 and 1. -/
theorem weights_eq (c : Dev nD) :
    (V m c (Pipeline.arrRef spec0 0) : S128x128.Idx → EReal)
      = Cert.ReferenceIdeal.Read.val_main_v64 (F := Ideal) (m ((c : Thread nD τ).loc main_arg1)) (m ((c : Thread nD τ).loc main_arg2)) :=
  (eq_of_heq (V_heq m c arr0)).trans (weights_at m c)

theorem input_eq (c : Dev nD) :
    (V m c (Pipeline.arrRef spec0 1) : S128x524288.Idx → EReal)
      = Cert.ReferenceIdeal.Read.val_main_v65 (F := Ideal) (m ((c : Thread nD τ).loc main_arg0)) :=
  (eq_of_heq (V_heq m c arr1)).trans (input_at m c)

end Cert.KernelIdeal.Banded

end
-- ==== Proof.RefValue.lean ====
import proofs.«121357_j66675072303670_1_alg».proof.Proof.Gen.ReferenceIdeal.Read
import proofs.«121357_j66675072303670_1_alg».proof.Proof.BandMix

noncomputable section

/-! # What the reference computes

The reference builds the banded softmax weight matrix from the two parameter arrays, flattens the input to
128 × 524288, multiplies, and reshapes back. Its product is the weighted row sum of the flattened input: one host
`dot_general` with the rows of the weights against the rows of the input. -/

namespace Cert.ReferenceIdeal.RefValue

open Cert.ReferenceIdeal Cert.ReferenceIdeal.Gen Cert.ReferenceIdeal.Read Idealize.ShloMosaic Idealize.ShloMosaic.TcCoe

/-- The reference's result, as a function of the three arguments: the reshaped weighted row sum, with the weight
    matrix and the flattened input left as the reference's own functions of the arguments. -/
theorem result_eq (a0 : FVec Ideal S128x8192x64 .f32) (a1 : FVec Ideal S32x32 .f32) (a2 : FVec Ideal S95x32 .f32) :
    val_main_v67 (F := Ideal) a0 a1 a2
      = shapeCast S128x8192x64 (Cert.BandMix.mix (val_main_v64 (F := Ideal) a1 a2) (val_main_v65 (F := Ideal) a0))
          shapeCasts_S128x524288_S128x8192x64 := by
  unfold val_main_v67 val_main_v66
  exact congrArg (fun A : S128x524288.Idx → EReal =>
      (shapeCast S128x8192x64 A shapeCasts_S128x524288_S128x8192x64 : S128x8192x64.Idx → EReal))
    (Cert.BandMix.dotGeneral_eq dot_S128x128_S128x524288_S128x524288_1_0_0_1_n_n rfl none _
      (val_main_v64 (F := Ideal) a1 a2) (val_main_v65 (F := Ideal) a0))

end Cert.ReferenceIdeal.RefValue

end
-- ==== Proof.lean ====
/- The certificate of a banded causal mixing kernel against its jnp reference, over the extended reals.

   Both programs build, from the two parameter arrays, the same 128 × 128 weight matrix W (per-row softmax weights laid
   on a causal band) by the same host operations in the same order, and flatten the input X to 128 × 524288. The
   reference then takes one product W · X on the host. The kernel tiles the 524288 columns into 64 blocks of 8192,
   narrows W and each block to bf16 (the identity on extended reals) and multiplies on the matrix unit into a zero
   accumulator, block by block. Entry (t, n) of either result is ∑ k, W (t, k) * X (k, n) over the same 128 indices, and
   column n of the product reads only column n of X, so the 64 block products are the column blocks of the whole
   product. No law that needs finiteness is used; the precondition is never opened.

   The modules: `BandMix` (the product as a function, and both ways of computing it), `KernelValue` (what the region
   leaves in its output array, and the program's result), `Prefix` (the arrays the region finds are the reference's own
   weight matrix and flattening), `RefValue` (the reference's result). -/
import proofs.«121357_j66675072303670_1_alg».proof.Defs
import proofs.«121357_j66675072303670_1_alg».proof.Proof.Gen.Kernel
import proofs.«121357_j66675072303670_1_alg».proof.Proof.Gen.Kernel.Skeleton
import proofs.«121357_j66675072303670_1_alg».proof.Proof.Gen.Kernel.Launch
import proofs.«121357_j66675072303670_1_alg».proof.Proof.Gen.Kernel.Points
import proofs.«121357_j66675072303670_1_alg».proof.Proof.Gen.Kernel.Frame
import proofs.«121357_j66675072303670_1_alg».proof.Proof.Gen.KernelIdeal
import proofs.«121357_j66675072303670_1_alg».proof.Proof.Gen.KernelIdeal.Skeleton
import proofs.«121357_j66675072303670_1_alg».proof.Proof.Gen.KernelIdeal.Launch
import proofs.«121357_j66675072303670_1_alg».proof.Proof.Gen.KernelIdeal.Points
import proofs.«121357_j66675072303670_1_alg».proof.Proof.Gen.KernelIdeal.Frame
import proofs.«121357_j66675072303670_1_alg».proof.Proof.Gen.ReferenceIdeal
import proofs.«121357_j66675072303670_1_alg».proof.Proof.Gen.Pre_finite_inputs
import proofs.«121357_j66675072303670_1_alg».proof.Proof.Gen.ReferenceIdeal.Run
import proofs.«121357_j66675072303670_1_alg».proof.Proof.Gen.ReferenceIdeal.Read
import proofs.«121357_j66675072303670_1_alg».proof.Proof.KernelValue
import proofs.«121357_j66675072303670_1_alg».proof.Proof.Prefix
import proofs.«121357_j66675072303670_1_alg».proof.Proof.RefValue
import Idealize.ShloMosaic.Adequacy
import Idealize.ShloMosaic.Init

noncomputable section

namespace Cert.Proof

open Idealize.ShloMosaic Idealize.ShloMosaic.TcCoe Idealize.SL.Sem

/-- The two idealized programs, run from memories that agree on the three arguments, end with the same result: the
    kernel's is the reshaped weighted row sum of the arrays its region found, which are the reference's own weight
    matrix and flattening of the same arguments, and the reference's is the reshaped weighted row sum of those. -/
theorem algebraic : Cert.algebraic_KernelIdeal_ReferenceIdeal := by
  intro m ρ m' ρ' _ hagree
  refine ⟨_, Cert.KernelIdeal.Banded.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, (hagree c).1, (hagree c).2.1, (hagree c).2.2,
    Cert.ReferenceIdeal.RefValue.result_eq, ← Cert.KernelIdeal.Banded.weights_eq m c, ← Cert.KernelIdeal.Banded.input_eq m c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
